-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S256x128 : Shape := ⟨2, ![256, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S4096x128 .f32) (main_arg1 : FVec F S256x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S4096x128 : Shape := ⟨2, ![4096, 128]⟩
abbrev S256x128 : Shape := ⟨2, ![256, 128]⟩
abbrev S256x4096 : Shape := ⟨2, ![256, 4096]⟩
abbrev S1024x128 : Shape := ⟨2, ![1024, 128]⟩
abbrev S256x1024 : Shape := ⟨2, ![256, 1024]⟩
abbrev S128x1024 : Shape := ⟨2, ![128, 1024]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S256x128, .f32⟩
  | .hbm, ⟨2, _⟩ => ⟨S256x4096, .f32⟩
  | .local _ .vmem, ⟨0, _⟩ => ⟨S256x128, .f32⟩
  | .local _ .vmem, ⟨1, _⟩ => ⟨S1024x128, .f32⟩
  | .local _ .vmem, ⟨2, _⟩ => ⟨S1024x128, .f32⟩
  | .local _ .vmem, ⟨3, _⟩ => ⟨S256x1024, .f32⟩
  | .local _ .vmem, ⟨4, _⟩ => ⟨S256x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  reduces_S256x128_S256 : S256x128.Reduces [1] S256
  shapeCasts_S256_S256x1 : S256.ShapeCasts S256x1
  reduces_S1024x128_S1024 : S1024x128.Reduces [1] S1024
  shapeCasts_S1024_S1024x1 : S1024.ShapeCasts S1024x1
  transposes_S1024x1_p1_0_S1x1024 : S1024x1.Transposes [1, 0] S1x1024
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg1) S256x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128 : Shape := ⟨2, ![4096, 128]⟩
abbrev S256x128 : Shape := ⟨2, ![256, 128]⟩
abbrev S256x1x128 : Shape := ⟨3, ![256, 1, 128]⟩
abbrev S1x4096x128 : Shape := ⟨3, ![1, 4096, 128]⟩
abbrev S256x4096x128 : Shape := ⟨3, ![256, 4096, 128]⟩
abbrev S_ : Shape := ⟨0, ![]⟩
abbrev S256x4096 : Shape := ⟨2, ![256, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S256x128, .f32⟩
  | .hbm, ⟨2, _⟩ => ⟨S256x1x128, .f32⟩
  | .hbm, ⟨3, _⟩ => ⟨S1x4096x128, .f32⟩
  | .hbm, ⟨4, _⟩ => ⟨S256x4096x128, .f32⟩
  | .hbm, ⟨5, _⟩ => ⟨S256x4096x128, .f32⟩
  | .hbm, ⟨6, _⟩ => ⟨S256x4096x128, .f32⟩
  | .hbm, ⟨7, _⟩ => ⟨S256x4096x128, .f32⟩
  | .hbm, ⟨8, _⟩ => ⟨S_, .f32⟩
  | .hbm, ⟨9, _⟩ => ⟨S256x4096, .f32⟩
  | .hbm, ⟨10, _⟩ => ⟨S256x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S256x128_S256x1x128_0_2 : S256x128.BroadcastsInDim S256x1x128 (![0, 2] : Fin 2 → Fin S256x1x128.rank)
  bcast_S4096x128_S1x4096x128_1_2 : S4096x128.BroadcastsInDim S1x4096x128 (![1, 2] : Fin 2 → Fin S1x4096x128.rank)
  bcast_S256x1x128_S256x4096x128_0_1_2 : S256x1x128.BroadcastsInDim S256x4096x128 (![0, 1, 2] : Fin 3 → Fin S256x4096x128.rank)
  bcast_S1x4096x128_S256x4096x128_0_1_2 : S1x4096x128.BroadcastsInDim S256x4096x128 (![0, 1, 2] : Fin 3 → Fin S256x4096x128.rank)
  reducesTo_S256x4096x128_S256x4096_d2 : S256x4096x128.ReducesTo [2] S256x4096
  h_S_ : 0 < S_.numel

variable [Facts₀]

class Facts : Prop extends Facts₀ where

variable [Facts]
-- ==== Proof.SquaredDistance.lean ====
/-
  The mathematics of this certificate, with no program in sight.

  For a table of centers `c` (256 rows of 128 entries) and a table of queries `x` (4096 rows of 128 entries) the result
  is the 256 × 4096 array of NEGATED SQUARED DISTANCES, `-‖c_p - x_q‖²`. It is written here in two forms:

  * `negSqDist`: the definition, `-(0 + Σ_k (c_p,k - x_q,k)²)` (the `0` is the sum's initial value);
  * `expanded`: the square multiplied out, `(2 · Σ_k c_p,k · x_q,k - Σ_k c_p,k²) - Σ_k x_q,k²`, the factor `2` being the
    f32 pattern `0x40000000`.

  On the extended reals the two are NOT the same function: multiplying the square out uses distributivity, which holds
  only when no term is infinite (an infinite entry gives `∞ - ∞` in one form and not in the other). Where every entry of
  both tables is a real number they agree, by the identity `(a - b)² = a² - 2ab + b²` summed over `k` (`expanded_eq_negSqDist`).
-/
import Idealize.ShloMosaic.PureOps.Ideal.Laws
import Idealize.ShloMosaic.Lib.ValueIdx

noncomputable section

namespace Cert.SquaredDistance

open Idealize.ShloMosaic Idealize.ShloMosaic.ValueIdx

/-- The f32 pattern `0x40000000` (sign 0, exponent 128, significand 0) denotes the real number 2. -/
theorem ofBits_two : Ideal.ofBits .f32 0x40000000#32 = ((2 : ℝ) : EReal) := by
  simp [Ideal.ofBits, Ideal.ieee, -EReal.coe_mul]; norm_num

/-- The embedding of the reals in the extended reals carries a finite sum to the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The square of a difference multiplied out and summed, over the reals:
    `2 Σ a b - Σ a² - Σ b² = -(0 + Σ (a - b)²)`. -/
theorem expand_real {ι : Type*} [Fintype ι] (a b : ι → ℝ) :
    2 * ∑ k, a k * b k - ∑ k, a k * a k - ∑ k, b k * b k = -(0 + ∑ k, (a k - b k) * (a k - b k)) := by
  have h : ∀ k, (a k - b k) * (a k - b k) = a k * a k - 2 * (a k * b k) + b k * b k := fun k => by ring
  simp only [h, Finset.sum_add_distrib, Finset.sum_sub_distrib, ← Finset.mul_sum]
  ring

/-- The same identity on the extended reals, for two families all of whose members are real numbers. -/
theorem expand {ι : Type*} [Fintype ι] (a b : ι → EReal) (ha : ∀ k, ∃ r : ℝ, a k = r) (hb : ∀ k, ∃ r : ℝ, b k = r) :
    ((2 : ℝ) : EReal) * ∑ k, a k * b k - ∑ k, a k * a k - ∑ k, b k * b k = -(0 + ∑ k, (a k - b k) * (a k - b k)) := by
  choose ra hra using ha
  choose rb hrb using hb
  obtain rfl : a = fun k => ((ra k : ℝ) : EReal) := funext hra
  obtain rfl : b = fun k => ((rb k : ℝ) : EReal) := funext hrb
  simp only [← EReal.coe_mul, ← EReal.coe_sub, ← coe_sum, ← EReal.coe_zero, ← EReal.coe_add, ← EReal.coe_neg]
  exact congrArg _ (expand_real ra rb)

/-- The queries' shape, the centers' shape and the result's shape. -/
abbrev Queries : Shape := ⟨2, ![4096, 128]⟩
abbrev Centers : Shape := ⟨2, ![256, 128]⟩
abbrev Result : Shape := ⟨2, ![256, 4096]⟩

/-- The negated squared distance of center `i 0` and query `i 1`, as defined. -/
def negSqDist (x : Queries.Idx → EReal) (c : Centers.Idx → EReal) : Result.Idx → EReal := fun i =>
  -(0 + ∑ k : Fin 128, (c (ix2 (i 0) k) - x (ix2 (i 1) k)) * (c (ix2 (i 0) k) - x (ix2 (i 1) k)))

/-- The same with the square multiplied out: twice the inner product, less the center's squared norm, less the query's. -/
def expanded (x : Queries.Idx → EReal) (c : Centers.Idx → EReal) : Result.Idx → EReal := fun i =>
  Ideal.ofBits .f32 0x40000000#32 * (∑ k : Fin 128, c (ix2 (i 0) k) * x (ix2 (i 1) k))
    - (∑ k : Fin 128, c (ix2 (i 0) k) * c (ix2 (i 0) k)) - ∑ k : Fin 128, x (ix2 (i 1) k) * x (ix2 (i 1) k)

/-- Where every entry of both tables is a real number the two forms are one function. -/
theorem expanded_eq_negSqDist (x : Queries.Idx → EReal) (c : Centers.Idx → EReal)
    (hx : ∀ j, ∃ r : ℝ, x j = r) (hc : ∀ j, ∃ r : ℝ, c j = r) : expanded x c = negSqDist x c := by
  funext i
  unfold expanded negSqDist
  rw [ofBits_two]
  exact expand (fun k => c (ix2 (i 0) k)) (fun k => x (ix2 (i 1) k)) (fun k => hc _) (fun k => hx _)

end Cert.SquaredDistance

end
-- ==== Proof.ReferenceRead.lean ====
/-
  The reference, read at an index.

  The reference spreads the centers over a middle axis and the queries over a leading axis (both to 256 × 4096 × 128),
  subtracts, squares, sums the last axis from the initial value zero, and negates. Entry (p, q, k) of the spread centers
  is center entry (p, k); entry (p, q, k) of the spread queries is query entry (q, k). So the result at (p, q) is
  `-(0 + Σ_k (c_p,k - x_q,k)²)`: the negated squared distance as defined.
-/
import proofs.«165034_j74801150427724_1_alg».proof.Proof.Gen.ReferenceIdeal.Read
import proofs.«165034_j74801150427724_1_alg».proof.Proof.SquaredDistance

noncomputable section

namespace Cert.ReferenceIdeal.RefValue

open Cert.ReferenceIdeal Cert.ReferenceIdeal.Read Idealize.ShloMosaic Idealize.ShloMosaic.ValueIdx

/-- Through the two broadcasts, entry (p, q, k) of the spread centers is center entry (p, k). -/
theorem center_index (i : S256x4096.Idx) (k : Fin 128) :
    idx_main_v0 (idx_main_v2 (idx_main_v6 i k)) = ix2 (i 0) k :=
  funext fun a => Fin.ext (by match a with | ⟨0, _⟩ => rfl | ⟨1, _⟩ => rfl)

/-- Through the two broadcasts, entry (p, q, k) of the spread queries is query entry (q, k). -/
theorem query_index (i : S256x4096.Idx) (k : Fin 128) :
    idx_main_v1 (idx_main_v3 (idx_main_v6 i k)) = ix2 (i 1) k :=
  funext fun a => Fin.ext (by match a with | ⟨0, _⟩ => rfl | ⟨1, _⟩ => rfl)

/-- The reference's result is the negated squared distance of each center and each query. -/
theorem reference_eq (x : (⟨S4096x128, .f32⟩ : BufTy).Contents (Elt Ideal)) (c : (⟨S256x128, .f32⟩ : BufTy).Contents (Elt Ideal)) :
    val_main_v7 (F := Ideal) x c = Cert.SquaredDistance.negSqDist x c := by
  funext i
  rw [val_main_v7_apply, val_main_v6_apply]
  simp only [val_main_v5_apply, val_main_v4_apply, val_main_v2_apply, val_main_v3_apply, val_main_v0_apply,
    val_main_v1_apply, val_main_cst_apply, center_index, query_index, Ideal.hostNegf_def, Ideal.negf_def,
    Ideal.ofBits_def, Ideal.ofBits_zero_f32, Ideal.mulf_def, Ideal.subf_def]
  rfl

end Cert.ReferenceIdeal.RefValue

end
-- ==== Proof.BodyEntry.lean ====
/-
  The kernel body's arithmetic, read at one entry of its 256 × 1024 result block.

  The body loads the 256 × 128 block of centers `c` and a 1024 × 128 block of queries `x`, and stores
  `2 · (c · xᵀ) - rowsum(c ∘ c) - rowsum(x ∘ x)ᵀ`: the matrix product contracts the 128 columns of both blocks (the queries are
  transposed first; narrowing to bf16 is the identity on extended reals), the centers' squared norms are a column
  spread over the 1024 columns, the queries' squared norms a column turned into a row and spread over the 256 rows.
  So entry (p, q) is `(2 · Σ_k c_p,k · x_q,k - Σ_k c_p,k²) - Σ_k x_q,k²`.
-/
import proofs.«165034_j74801150427724_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.TcCoe Idealize.ShloMosaic.ValueIdx

/-! ## Layout steps of a sum kept as a column -/

section Layout
variable {α : Type}

/-- A vector of length `n` laid out as an `[n, 1]` column reads, at row `r`, the vector at `r`. -/
theorem column_of_vector_apply {n : ℕ} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h _ _ (by
    rw [Shape.rowMajor_val_two, Shape.rowMajor_val_one]
    show r.val = r.val * 1 + 0
    rw [Nat.mul_one, Nat.add_zero])

/-- An `[a, 1]` column spread over `b` columns reads, at `(p, c)`, the column at row `p`. -/
theorem spread_column_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-- The sum along each row of an `[n, 128]` array, from the zero pattern, read at row `r`: the sum of the row's entries. -/
theorem row_sum_apply {n : ℕ} (v : FVec Ideal ⟨2, ![n, 128]⟩ .f32) (h : Shape.Reduces ⟨2, ![n, 128]⟩ [1] ⟨1, ![n]⟩)
    (hφ : FKind.Formats .f32) (hacc : (0x00000000#32 : BitVec 32) = FKind.add.neutral .f32 hφ) (r : Fin n) :
    multiReduction .add [1] ⟨1, ![n]⟩ v 0x00000000#32 h hφ hacc (ix1 r) = ∑ k : Fin 128, v (ix2 r k) := by
  refine (Ideal.multiReduction_add_single v 0x00000000#32 h hφ hacc (ix1 r)).trans ?_
  refine Finset.sum_congr rfl fun k _ => congrArg v (funext fun a => Fin.ext ?_)
  match a with
  | ⟨0, _⟩ => rfl
  | ⟨1, _⟩ => rfl

/-! ## The matrix product's operand indices, axis by axis -/

theorem lhs_axis_0 (i : S256x1024.Idx) (κ : dot_S256x128_S128x1024_S256x1024_1_0_0_1_n_n.contr.Idx) :
    (dot_S256x128_S128x1024_S256x1024_1_0_0_1_n_n.lhsIdx i κ 0).val = (i 0).val := by
  unfold DotDims.lhsIdx
  rw [dif_neg (show ¬(0 : Fin S256x128.rank) ∈ dot_S256x128_S128x1024_S256x1024_1_0_0_1_n_n.lhsBatch by decide),
    dif_pos (show (0 : Fin S256x128.rank) ∈ dot_S256x128_S128x1024_S256x1024_1_0_0_1_n_n.lhsNonContracting by decide)]
  rfl

theorem lhs_axis_1 (i : S256x1024.Idx) (κ : dot_S256x128_S128x1024_S256x1024_1_0_0_1_n_n.contr.Idx) :
    (dot_S256x128_S128x1024_S256x1024_1_0_0_1_n_n.lhsIdx i κ 1).val = (κ ⟨0, by decide⟩).val :=
  dot_S256x128_S128x1024_S256x1024_1_0_0_1_n_n.lhsIdx_val_of_single rfl i κ

theorem rhs_axis_0 (i : S256x1024.Idx) (κ : dot_S256x128_S128x1024_S256x1024_1_0_0_1_n_n.contr.Idx) :
    (dot_S256x128_S128x1024_S256x1024_1_0_0_1_n_n.rhsIdx i κ 0).val = (κ ⟨0, by decide⟩).val :=
  dot_S256x128_S128x1024_S256x1024_1_0_0_1_n_n.rhsIdx_val_of_single rfl i κ

theorem rhs_axis_1 (i : S256x1024.Idx) (κ : dot_S256x128_S128x1024_S256x1024_1_0_0_1_n_n.contr.Idx) :
    (dot_S256x128_S128x1024_S256x1024_1_0_0_1_n_n.rhsIdx i κ 1).val = (i 1).val := by
  unfold DotDims.rhsIdx
  rw [dif_neg (show ¬(1 : Fin S128x1024.rank) ∈ dot_S256x128_S128x1024_S256x1024_1_0_0_1_n_n.rhsBatch by decide),
    dif_pos (show (1 : Fin S128x1024.rank) ∈ dot_S256x128_S128x1024_S256x1024_1_0_0_1_n_n.rhsNonContracting by decide)]
  rfl

/-! ## The three terms at entry (p, q) -/

/-- The product of the centers' block with the transposed queries' block, into a zero accumulator, at `(p, q)`:
    the inner product of center row `p` and query row `q`. -/
theorem inner_product_entry (c : Vec Ideal S256x128 .f32) (x : Vec Ideal S1024x128 .f32) (p : Fin 256) (q : Fin 1024) :
    matmul dot_S256x128_S128x1024_S256x1024_1_0_0_1_n_n none (truncf .bf16 c bitsLt_bf16_f32)
        (transpose S128x1024 [1, 0] (truncf .bf16 x bitsLt_bf16_f32) transposes_S1024x128_p1_0_S128x1024)
        (constant (F := Ideal) S256x1024 .f32 0x00000000#32) (ix2 p q)
      = ∑ k : Fin 128, c (ix2 p k) * x (ix2 q k) := by
  simp only [matmul]
  rw [Ideal.matmul_constant_zero_apply, ← Equiv.sum_comp (contrEquiv1 dot_S256x128_S128x1024_S256x1024_1_0_0_1_n_n 128 rfl rfl).symm]
  refine Finset.sum_congr rfl fun k _ => ?_
  have hk := contrEquiv1_symm_val dot_S256x128_S128x1024_S256x1024_1_0_0_1_n_n 128 rfl rfl k
  have el : dot_S256x128_S128x1024_S256x1024_1_0_0_1_n_n.lhsIdx (ix2 p q) ((contrEquiv1 dot_S256x128_S128x1024_S256x1024_1_0_0_1_n_n 128 rfl rfl).symm k) = ix2 p k :=
    funext fun a => Fin.ext (by
      match a with
      | ⟨0, _⟩ => exact lhs_axis_0 _ _
      | ⟨1, _⟩ => exact (lhs_axis_1 _ _).trans hk)
  have er : dot_S256x128_S128x1024_S256x1024_1_0_0_1_n_n.rhsIdx (ix2 p q) ((contrEquiv1 dot_S256x128_S128x1024_S256x1024_1_0_0_1_n_n 128 rfl rfl).symm k) = ix2 k q :=
    funext fun a => Fin.ext (by
      match a with
      | ⟨0, _⟩ => exact (rhs_axis_0 _ _).trans hk
      | ⟨1, _⟩ => exact rhs_axis_1 _ _)
  rw [el, er]
  exact congrArg (c (ix2 p k) * ·) (transpose_ix2_apply _ transposes_S1024x128_p1_0_S128x1024 k q)

/-- The centers' squared norms, kept as a column and spread over the columns, at `(p, q)`: the squared norm of row `p`. -/
theorem center_norm_entry (c : Vec Ideal S256x128 .f32) (p : Fin 256) (q : Fin 1024) :
    broadcastTo S256x1024
        (shapeCast S256x1 (multiReduction (F := Ideal) .add [1] S256 (mulf c c) 0x00000000#32 reduces_S256x128_S256 (.inl rfl) rfl)
          shapeCasts_S256_S256x1) broadcasts_S256x1_S256x1024 (ix2 p q)
      = ∑ k : Fin 128, c (ix2 p k) * c (ix2 p k) :=
  (spread_column_apply _ broadcasts_S256x1_S256x1024 p q).trans
    ((column_of_vector_apply _ shapeCasts_S256_S256x1 p).trans
      (row_sum_apply (mulf c c) reduces_S256x128_S256 (.inl rfl) rfl p))

/-- The queries' squared norms, kept as a column, turned into a row and spread over the rows, at `(p, q)`: the squared
    norm of query row `q`. -/
theorem query_norm_entry (x : Vec Ideal S1024x128 .f32) (p : Fin 256) (q : Fin 1024) :
    broadcastTo S256x1024
        (transpose S1x1024 [1, 0]
          (shapeCast S1024x1 (multiReduction (F := Ideal) .add [1] S1024 (mulf x x) 0x00000000#32 reduces_S1024x128_S1024 (.inl rfl) rfl)
            shapeCasts_S1024_S1024x1) transposes_S1024x1_p1_0_S1x1024) broadcasts_S1x1024_S256x1024 (ix2 p q)
      = ∑ k : Fin 128, x (ix2 q k) * x (ix2 q k) :=
  (broadcastTo_1b_ab_apply _ broadcasts_S1x1024_S256x1024 p q).trans
    ((transpose_ix2_apply _ transposes_S1024x1_p1_0_S1x1024 (0 : Fin 1) q).trans
      ((column_of_vector_apply _ shapeCasts_S1024_S1024x1 q).trans
        (row_sum_apply (mulf x x) reduces_S1024x128_S1024 (.inl rfl) rfl q)))

/-! ## The stored value at entry (p, q) -/

/-- Entry `(p, q)` of what the body stores: twice the inner product of center row `p` and query row `q`, less the
    center's squared norm, less the query's. -/
theorem payload_entry (c : Vec Ideal S256x128 .f32) (x : Vec Ideal S1024x128 .f32) (p : Fin 256) (q : Fin 1024) :
    k0_pay1 (F := Ideal) c x (ix2 p q)
      = Ideal.ofBits .f32 0x40000000#32 * (∑ k : Fin 128, c (ix2 p k) * x (ix2 q k))
        - (∑ k : Fin 128, c (ix2 p k) * c (ix2 p k)) - ∑ k : Fin 128, x (ix2 q k) * x (ix2 q k) := by
  unfold k0_pay1
  exact congrArg₂ (· - ·)
    (congrArg₂ (· - ·) (congrArg (Ideal.ofBits .f32 0x40000000#32 * ·) (inner_product_entry c x p q)) (center_norm_entry c p q))
    (query_norm_entry x p q)

end Cert.KernelIdeal.Entry

end
-- ==== Proof.WholeArray.lean ====
/-
  From the kernel's blocks to its whole result array.

  The grid has four points. At point `t` the body sees all 256 centers (the centers' window never moves) and queries
  `1024·t … 1024·t + 1023` (the queries' window moves down the rows with the output window's column block), and writes back
  columns `1024·t … 1024·t + 1023` of all 256 rows of the result. So what point `t` writes back is block `t` of ONE function
  of the two whole argument tables — `SquaredDistance.expanded`, by the body's entry (`Entry.payload_entry`) — and the four
  column blocks tile the 256 × 4096 result, which therefore ends holding that function everywhere.
-/
import proofs.«165034_j74801150427724_1_alg».proof.Proof.Gen.KernelIdeal.Value
import proofs.«165034_j74801150427724_1_alg».proof.Proof.BodyEntry
import proofs.«165034_j74801150427724_1_alg».proof.Proof.SquaredDistance

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The origin of a rank-2 block. -/
theorem origin : (![0, 0] : Fin 2 → Nat) = fun _ => 0 := funext fun a => by fin_cases a <;> rfl

/-- The three printed index maps over the four grid points: the centers' block index is always (0, 0); the queries' row
    block is the output's column block, its column block 0; the output's row block is 0 and its column block at most 3. -/
theorem block_indices : ∀ t : Fin cfg0.N,
    win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 3 :=
  (by decide +kernel : ∀ t : Fin grid0.N, _)

/-- Each of the four column blocks of the result is some point's. -/
theorem block_onto : ∀ b : Fin 4, ∃ t : Fin cfg0.N, win0_2.index t = ![0, b.val] :=
  (by decide +kernel : ∀ b : Fin 4, ∃ t : Fin grid0.N, win0_2.index t = ![0, b.val])

/-- The centers' block at any point is the whole centers' table. -/
theorem centers_block (c : Dev nD) (t : Fin cfg0.N) (p : Fin 256) (k : Fin 128) :
    iblk m c 0 t (ix2 p k) = V m c main_arg1 (ix2 p k) := by
  obtain ⟨e0, e1, -⟩ := block_indices t
  show V m c main_arg1 (((cfg0.win 0).blk t).view.emb (ix2 p k)) = V m c main_arg1 (ix2 p k)
  refine congrArg (V m c main_arg1) (funext fun a => Fin.ext ?_)
  match a with
  | ⟨0, _⟩ => show win0_0.index t (0 : Fin 2) * 256 + 1 * p.val = p.val; omega
  | ⟨1, _⟩ => show win0_0.index t (1 : Fin 2) * 128 + 1 * k.val = k.val; omega

/-- The queries' block at point `t` is rows `1024·b … 1024·b + 1023` of the queries' table, `b` the output's column block. -/
theorem queries_block (c : Dev nD) (t : Fin cfg0.N) (q : Fin 1024) (k : Fin 128) (r : Fin 4096)
    (hr : r.val = win0_2.index t (1 : Fin 2) * 1024 + q.val) :
    iblk m c 1 t (ix2 q k) = V m c main_arg0 (ix2 r k) := by
  obtain ⟨-, -, e2, e3, -⟩ := block_indices t
  show V m c main_arg0 (((cfg0.win 1).blk t).view.emb (ix2 q k)) = V m c main_arg0 (ix2 r k)
  refine congrArg (V m c main_arg0) (funext fun a => Fin.ext ?_)
  match a with
  | ⟨0, _⟩ => show win0_1.index t (0 : Fin 2) * 1024 + 1 * q.val = r.val; omega
  | ⟨1, _⟩ => show win0_1.index t (1 : Fin 2) * 128 + 1 * k.val = k.val; omega

/-- Entry `(p, q)` of what the body stores at point `t` is the expanded negated squared distance of center `p` and query
    `1024·b + q`. -/
theorem stored_entry (c : Dev nD) (t : Fin cfg0.N) (p : Fin 256) (q : Fin 1024) (r : Fin 4096)
    (hr : r.val = win0_2.index t (1 : Fin 2) * 1024 + q.val) :
    k0_pay1 (F := Ideal) (iblk m c 0 t) (iblk m c 1 t) (ix2 p q)
      = Cert.SquaredDistance.expanded (V m c main_arg0) (V m c main_arg1) (ix2 p r) := by
  refine (Entry.payload_entry (iblk m c 0 t) (iblk m c 1 t) p q).trans ?_
  unfold Cert.SquaredDistance.expanded
  simp only [centers_block m c t, queries_block m c t q _ r hr]

/-- WHAT POINT `t` WRITES BACK is block `t` of the expanded negated squared distances of the two argument tables. -/
theorem flushed_eq (c : Dev nD) (t : Fin cfg0.N) :
    (dats m 0 c).flushed 2 t
      = ((cfg0.win 2).blk t).view.read (Elt Ideal) (Cert.SquaredDistance.expanded (V m c main_arg0) (V m c main_arg1)) := by
  rw [Value.flushed2]
  unfold out0_2
  rw [View.canon_unit_zero origin]
  simp only [View.ld_unit_zero (S := S256x128) origin, View.ld_unit_zero (S := S1024x128) origin]
  obtain ⟨-, -, -, -, e4, e5⟩ := block_indices t
  funext j
  have hp : (j 0).val < 256 := (j 0).isLt
  have hq : (j 1).val < 1024 := (j 1).isLt
  have hj : j = ix2 (⟨(j 0).val, hp⟩ : Fin 256) (⟨(j 1).val, hq⟩ : Fin 1024) :=
    funext fun a => Fin.ext (by match a with | ⟨0, _⟩ => rfl | ⟨1, _⟩ => rfl)
  have hr : ((cfg0.win 2).blk t).view.emb j
      = ix2 (⟨(j 0).val, hp⟩ : Fin 256) (⟨win0_2.index t (1 : Fin 2) * 1024 + (j 1).val, by omega⟩ : Fin 4096) := by
    funext a; apply Fin.ext
    match a with
    | ⟨0, _⟩ => show win0_2.index t (0 : Fin 2) * 256 + 1 * (j 0).val = (j 0).val; omega
    | ⟨1, _⟩ => show win0_2.index t (1 : Fin 2) * 1024 + 1 * (j 1).val = win0_2.index t (1 : Fin 2) * 1024 + (j 1).val; omega
  show k0_pay1 (F := Ideal) (iblk m c 0 t) (iblk m c 1 t) j
    = Cert.SquaredDistance.expanded (V m c main_arg0) (V m c main_arg1) (((cfg0.win 2).blk t).view.emb j)
  rw [hr]
  exact (congrArg (k0_pay1 (F := Ideal) (iblk m c 0 t) (iblk m c 1 t)) hj).trans
    (stored_entry m c t ⟨(j 0).val, hp⟩ ⟨(j 1).val, hq⟩ _ rfl)

/-- An index of the result is in point `t`'s block iff each coordinate is in the block's range on its axis. -/
theorem mem_block (t : Fin cfg0.N) (i : S256x4096.Idx) :
    i ∈ ((cfg0.win 2).blk t).view.set
      ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- Every index of the result lies in some point's block: column `i 1` is in column block `i 1 / 1024`. -/
theorem covered (i : S256x4096.Idx) :
    ∃ t : Fin cfg0.N, (cfg0.win 2).flush t = true ∧ i ∈ ((cfg0.win 2).blk t).view.set := by
  have hi0 : (i 0).val < 256 := (i 0).isLt
  have hi1 : (i 1).val < 4096 := (i 1).isLt
  obtain ⟨t, ht⟩ := block_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- THE RESULT ARRAY after the run: the expanded negated squared distances of the argument tables as launched. -/
theorem final (c : Dev nD) :
    (dats m 0 c).arrAt 2 cfg0.N
      = Cert.SquaredDistance.expanded (m ((c : Thread nD τ).loc main_arg0)) (m ((c : Thread nD τ).loc main_arg1)) :=
  (dats m 0 c).arrAt_eq_of_cover 2 (Cert.SquaredDistance.expanded (V m c main_arg0) (V m c main_arg1))
    (fun t _ => flushed_eq m c t) covered

/-- The kernel's run, read: the result array at the expanded negated squared distances, the arguments unchanged. -/
theorem run : θ_run defs (onTc (τ := τ) (main (F := Ideal))) ⟨m, fun _ => 0, ρ⟩ fun r => ∀ c : Dev nD,
      r.2.mem ((c : Thread nD τ).loc main_v0)
        = Cert.SquaredDistance.expanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.FiniteEntries.lean ====
/-
  What the precondition says: every entry of both argument tables is a real number.

  The printed predicate is `all(|x| < +∞) ∧ all(|c| < +∞)`, each `all` a reduction by `and` from 1 over the whole table, the
  bound the f32 pattern `0x7F800000` (exponent all ones, significand zero: `+∞`). An extended real whose absolute value
  `max a (-a)` is below `+∞` is neither `+∞` nor `-∞`, so it is a real number.
-/
import proofs.«165034_j74801150427724_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The f32 pattern `0x7F800000` denotes `+∞`. -/
theorem ofBits_inf : Ideal.ofBits .f32 0x7F800000#32 = (⊤ : EReal) := by
  simp [Ideal.ofBits, Ideal.ieee]

/-- An extended real whose absolute value compares below `+∞` is a real number. -/
theorem real_of_abs_lt_inf (a : EReal)
    (h : Ideal.cmp .olt (max a (-a)) (Ideal.ofBits .f32 0x7F800000#32) = 1#1) : ∃ r : ℝ, a = r := by
  rw [ofBits_inf] at h
  induction a using EReal.rec with
  | bot => simp [Ideal.cmp] at h
  | coe r => exact ⟨r, rfl⟩
  | top => simp [Ideal.cmp] at h

variable [Cert.Pre_finite_inputs.Facts]

/-- Under the precondition every entry of the queries' table and of the centers' table is a real number. -/
theorem entries_real (x : FVec Ideal S4096x128 .f32) (c : FVec Ideal S256x128 .f32)
    (h : fn (F := Ideal) x c = fun _ => 1#1) : (∀ j, ∃ r : ℝ, x j = r) ∧ (∀ j, ∃ r : ℝ, c j = r) := by
  have h0 := congrFun h ValueIdx.ix0
  dsimp only [fn] at h0
  obtain ⟨hx, hc⟩ := IntOp.andi_eq_one.1 h0
  haveI : Subsingleton S_.Idx := ⟨fun a b => funext fun d => d.elim0⟩
  exact ⟨fun j => real_of_abs_lt_inf _ (Host.reduce_andi_all _ _ _ _ _ hx j),
    fun j => real_of_abs_lt_inf _ (Host.reduce_andi_all _ _ _ _ _ hc j)⟩

end Cert.Pre_finite_inputs.Finite

end
-- ==== Proof.lean ====
/-
  Negated squared distances between 256 centers and 4096 queries of 128 entries each.

  The reference computes `-Σ_k (c_p,k - x_q,k)²` directly. The kernel uses the identity
  `‖c - x‖² = ‖c‖² - 2 c·x + ‖x‖²`: over a grid of four points, each taking all centers and 1024 queries, it stores
  `2 · (c · xᵀ) - ‖c‖² - ‖x‖²` for a 256 × 1024 block of columns of the result.

  On the extended reals the two expressions agree exactly when no entry is infinite: the precondition (every entry of
  both tables finite) is what makes the square multiply out. The pieces:
  * `SquaredDistance`: both forms as functions of the two tables, and their equality on real entries;
  * `ReferenceRead`: the reference's result is the direct form;
  * `BodyEntry`: one entry of what the kernel body stores is the multiplied-out form on the body's blocks;
  * `WholeArray`: the four column blocks tile the result, which ends holding the multiplied-out form of the whole tables;
  * `FiniteEntries`: the precondition makes every entry a real number.
  The three programs' termination and unchanged arguments are the generated frames (the reference's is its generated
  run with the result dropped); the idealization rewrote nothing, so there is nothing to preserve.
-/
import proofs.«165034_j74801150427724_1_alg».proof.Defs
import proofs.«165034_j74801150427724_1_alg».proof.Proof.Gen.Kernel
import proofs.«165034_j74801150427724_1_alg».proof.Proof.Gen.Kernel.Skeleton
import proofs.«165034_j74801150427724_1_alg».proof.Proof.Gen.Kernel.Launch
import proofs.«165034_j74801150427724_1_alg».proof.Proof.Gen.Kernel.Points
import proofs.«165034_j74801150427724_1_alg».proof.Proof.Gen.Kernel.Frame
import proofs.«165034_j74801150427724_1_alg».proof.Proof.Gen.KernelIdeal
import proofs.«165034_j74801150427724_1_alg».proof.Proof.Gen.KernelIdeal.Skeleton
import proofs.«165034_j74801150427724_1_alg».proof.Proof.Gen.KernelIdeal.Launch
import proofs.«165034_j74801150427724_1_alg».proof.Proof.Gen.KernelIdeal.Points
import proofs.«165034_j74801150427724_1_alg».proof.Proof.Gen.KernelIdeal.Frame
import proofs.«165034_j74801150427724_1_alg».proof.Proof.Gen.ReferenceIdeal
import proofs.«165034_j74801150427724_1_alg».proof.Proof.Gen.Pre_finite_inputs
import proofs.«165034_j74801150427724_1_alg».proof.Proof.Gen.KernelIdeal.Value
import proofs.«165034_j74801150427724_1_alg».proof.Proof.Gen.ReferenceIdeal.Run
import proofs.«165034_j74801150427724_1_alg».proof.Proof.Gen.ReferenceIdeal.Read
import proofs.«165034_j74801150427724_1_alg».proof.Proof.SquaredDistance
import proofs.«165034_j74801150427724_1_alg».proof.Proof.ReferenceRead
import proofs.«165034_j74801150427724_1_alg».proof.Proof.BodyEntry
import proofs.«165034_j74801150427724_1_alg».proof.Proof.WholeArray
import proofs.«165034_j74801150427724_1_alg».proof.Proof.FiniteEntries
import Idealize.ShloMosaic.Adequacy
import Idealize.ShloMosaic.Init

noncomputable section

namespace Cert.Proof

open Idealize.ShloMosaic Idealize.ShloMosaic.TcCoe Idealize.SL.Sem

/-- The kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from finite tables that agree, the kernel's result array and the reference's are the same
    array: the kernel's is the multiplied-out form of the negated squared distances, the reference's the direct form,
    and on real entries the two forms are one function. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hc⟩ := Cert.Pre_finite_inputs.Finite.entries_real _ _ (hpre c)
  rw [Cert.ReferenceIdeal.Read.val_main_v7_eq, Cert.ReferenceIdeal.RefValue.reference_eq, (hagree c).1, (hagree c).2]
  exact (Cert.SquaredDistance.expanded_eq_negSqDist _ _ hx hc).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
